-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4194304x3 : Shape := ⟨3, ![2, 4194304, 3]⟩
abbrev S1 : Shape := ⟨1, ![1]⟩
abbrev S4 : Shape := ⟨1, ![4]⟩
abbrev S9 : Shape := ⟨1, ![9]⟩
abbrev S_ : Shape := ⟨0, ![]⟩

class Facts : Prop where
  bcast_S_S2x4194304x3 : S_.BroadcastsInDim S2x4194304x3 (![] : Fin 0 → Fin S2x4194304x3.rank)
  reducesTo_S2x4194304x3_S_d0_1_2 : S2x4194304x3.ReducesTo [0, 1, 2] S_
  h_S_ : 0 < S_.numel
  bcast_S_S1 : S_.BroadcastsInDim S1 (![] : Fin 0 → Fin S1.rank)
  reducesTo_S1_S_d0 : S1.ReducesTo [0] S_
  bcast_S_S4 : S_.BroadcastsInDim S4 (![] : Fin 0 → Fin S4.rank)
  reducesTo_S4_S_d0 : S4.ReducesTo [0] S_
  bcast_S_S9 : S_.BroadcastsInDim S9 (![] : Fin 0 → Fin S9.rank)
  reducesTo_S9_S_d0 : S9.ReducesTo [0] S_

variable [Facts]

def fn_part1 {F : FTy → Type} [FloatOps F] (main_arg4 : FVec F S9 .f32) (main_v13 : IVec S_ 1) (main_v16 : IVec S9 1) : IVec S_ 1 :=
  let main_c_5 : IVec S_ 1 := constantI S_ 1 1#1
  let main_v17 : IVec S_ 1 := (fun x v => Host.reduce IntOp.andi x v reducesTo_S9_S_d0 h_S_) main_v16 main_c_5
  let main_v18 : IVec S_ 1 := andi main_v13 main_v17
  let main_v19 : FVec F S9 .f32 := Host.absf main_arg4
  let main_cst_6 : FVec F S_ .f32 := constant S_ .f32 0x7F800000#32
  let main_v20 : FVec F S9 .f32 := broadcastInDim S9 ![] bcast_S_S9 main_cst_6
  let main_v21 : IVec S9 1 := cmpf .olt main_v19 main_v20
  let main_c_7 : IVec S_ 1 := constantI S_ 1 1#1
  let main_v22 : IVec S_ 1 := (fun x v => Host.reduce IntOp.andi x v reducesTo_S9_S_d0 h_S_) main_v21 main_c_7
  let main_v23 : IVec S_ 1 := andi main_v18 main_v22
  main_v23

def fn {F : FTy → Type} [FloatOps F] (main_arg0 : FVec F S2x4194304x3 .f32) (main_arg1 : FVec F S1 .f32) (main_arg2 : FVec F S4 .f32) (main_arg3 : FVec F S9 .f32) (main_arg4 : FVec F S9 .f32) : IVec S_ 1 :=
  let main_v0 : FVec F S2x4194304x3 .f32 := Host.absf main_arg0
  let main_cst : FVec F S_ .f32 := constant S_ .f32 0x7F800000#32
  let main_v1 : FVec F S2x4194304x3 .f32 := broadcastInDim S2x4194304x3 ![] bcast_S_S2x4194304x3 main_cst
  let main_v2 : IVec S2x4194304x3 1 := cmpf .olt main_v0 main_v1
  let main_c : IVec S_ 1 := constantI S_ 1 1#1
  let main_v3 : IVec S_ 1 := (fun x v => Host.reduce IntOp.andi x v reducesTo_S2x4194304x3_S_d0_1_2 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S9 .f32 := Host.absf main_arg3
  let main_cst_4 : FVec F S_ .f32 := constant S_ .f32 0x7F800000#32
  let main_v15 : FVec F S9 .f32 := broadcastInDim S9 ![] bcast_S_S9 main_cst_4
  let main_v16 : IVec S9 1 := cmpf .olt main_v14 main_v15
  fn_part1 (F := F) main_arg4 main_v13 main_v16
-- ==== Kernel.lean ====
abbrev S2x4194304x3 : Shape := ⟨3, ![2, 4194304, 3]⟩
abbrev S1 : Shape := ⟨1, ![1]⟩
abbrev S4 : Shape := ⟨1, ![4]⟩
abbrev S9 : Shape := ⟨1, ![9]⟩
abbrev S4194304x36 : Shape := ⟨2, ![4194304, 36]⟩
abbrev S2x16384x3 : Shape := ⟨3, ![2, 16384, 3]⟩
abbrev S16384x36 : Shape := ⟨2, ![16384, 36]⟩
abbrev S1x16384x3 : Shape := ⟨3, ![1, 16384, 3]⟩
abbrev S16384x3 : Shape := ⟨2, ![16384, 3]⟩
abbrev S16384 : Shape := ⟨1, ![16384]⟩
abbrev S16384x1 : Shape := ⟨2, ![16384, 1]⟩
abbrev S1x9 : Shape := ⟨2, ![1, 9]⟩
abbrev S16384x9 : Shape := ⟨2, ![16384, 9]⟩
abbrev S1x4 : Shape := ⟨2, ![1, 4]⟩
abbrev S16384x4 : Shape := ⟨2, ![16384, 4]⟩
abbrev S1x1 : Shape := ⟨2, ![1, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x4194304x3, .f32⟩
  | .hbm, ⟨1, _⟩ => ⟨S1, .f32⟩
  | .hbm, ⟨2, _⟩ => ⟨S4, .f32⟩
  | .hbm, ⟨3, _⟩ => ⟨S9, .f32⟩
  | .hbm, ⟨4, _⟩ => ⟨S9, .f32⟩
  | .hbm, ⟨5, _⟩ => ⟨S4194304x36, .f32⟩
  | .local _ .vmem, ⟨0, _⟩ => ⟨S2x16384x3, .f32⟩
  | .local _ .vmem, ⟨1, _⟩ => ⟨S2x16384x3, .f32⟩
  | .local _ .vmem, ⟨2, _⟩ => ⟨S1, .f32⟩
  | .local _ .vmem, ⟨3, _⟩ => ⟨S4, .f32⟩
  | .local _ .vmem, ⟨4, _⟩ => ⟨S9, .f32⟩
  | .local _ .vmem, ⟨5, _⟩ => ⟨S9, .f32⟩
  | .local _ .vmem, ⟨6, _⟩ => ⟨S16384x36, .f32⟩
  | .local _ .vmem, ⟨7, _⟩ => ⟨S16384x36, .f32⟩
  | _, _ => ⟨S2x4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x16384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x36 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2x16384x3_S1x16384x3_0_0_0 : ∀ a, (![0, 0, 0] : Fin 3 → Nat) a + S1x16384x3.size a ≤ S2x16384x3.size a
  h_S1x16384x3 : 0 < S1x16384x3.numel
  shapeCasts_S1x16384x3_S16384x3 : S1x16384x3.ShapeCasts S16384x3
  inb_S2x16384x3_S1x16384x3_1_0_0 : ∀ a, (![1, 0, 0] : Fin 3 → Nat) a + S1x16384x3.size a ≤ S2x16384x3.size a
  reduces_S16384x3_S16384 : S16384x3.Reduces [1] S16384
  shapeCasts_S16384_S16384x1 : S16384.ShapeCasts S16384x1
  inb_S9_S9_0 : ∀ a, (![0] : Fin 1 → Nat) a + S9.size a ≤ S9.size a
  h_S9 : 0 < S9.numel
  shapeCasts_S9_S1x9 : S9.ShapeCasts S1x9
  broadcasts_S16384x1_S16384x9 : S16384x1.Broadcasts S16384x9
  broadcasts_S1x9_S16384x9 : S1x9.Broadcasts S16384x9
  inb_S1_S1_0 : ∀ a, (![0] : Fin 1 → Nat) a + S1.size a ≤ S1.size a
  h_S1 : 0 < S1.numel
  inb_S4_S4_0 : ∀ a, (![0] : Fin 1 → Nat) a + S4.size a ≤ S4.size a
  h_S4 : 0 < S4.numel
  shapeCasts_S4_S1x4 : S4.ShapeCasts S1x4
  broadcasts_S16384x1_S16384x4 : S16384x1.Broadcasts S16384x4
  broadcasts_S1x4_S16384x4 : S1x4.Broadcasts S16384x4
  shapeCasts_S1_S1x1 : S1.ShapeCasts S1x1
  broadcasts_S1x1_S16384x4 : S1x1.Broadcasts S16384x4
  concatenates_S16384x9_S16384x9_S16384x9_S16384x9_S16384x36_d1 : Shape.Concatenates [S16384x9, S16384x9, S16384x9, S16384x9] S16384x36 1
  slices_S16384x4_o0_0_S16384x1 : S16384x4.Slices ![0, 0] S16384x1
  shapeCasts_S16384x1_S16384x1 : S16384x1.ShapeCasts S16384x1
  slices_S16384x4_o0_1_S16384x1 : S16384x4.Slices ![0, 1] S16384x1
  slices_S16384x4_o0_2_S16384x1 : S16384x4.Slices ![0, 2] S16384x1
  slices_S16384x4_o0_3_S16384x1 : S16384x4.Slices ![0, 3] S16384x1
  broadcasts_S16384x1_S16384x36 : S16384x1.Broadcasts S16384x36
  inb_S16384x36_S16384x36_0_0 : ∀ a, (![0, 0] : Fin 2 → Nat) a + S16384x36.size a ≤ S16384x36.size a
  h_S16384x36 : 0 < S16384x36.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16384x3.size a ≤ S2x4194304x3.size a
  hwx0_0 : ∀ i : grid0.Coords, EltTy.bits .f32 = 32 ∨ (Rect.block (s := S2x4194304x3) S2x16384x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1.size a ≤ S1.size a
  hwx0_1 : ∀ i : grid0.Coords, EltTy.bits .f32 = 32 ∨ (Rect.block (s := S1) S1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9.size a ≤ S9.size a
  hwx0_3 : ∀ i : grid0.Coords, EltTy.bits .f32 = 32 ∨ (Rect.block (s := S9) S9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9.size a ≤ S9.size a
  hwx0_4 : ∀ i : grid0.Coords, EltTy.bits .f32 = 32 ∨ (Rect.block (s := S9) S9.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16384x36.size a ≤ S4194304x36.size a
  hwx0_5 : ∀ i : grid0.Coords, EltTy.bits .f32 = 32 ∨ (Rect.block (s := S4194304x36) S16384x36.size (cc0_transform_5 i) (hinb0_5 i)).WholeWords (EltTy.packing .f32)

variable [Facts₀]

abbrev win0_0 : Pipeline.Window sig grid0 :=
  Pipeline.Window.ofSpec (Memref.whole main_arg0) S2x16384x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16384x36.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4194304x3 : Shape := ⟨3, ![2, 4194304, 3]⟩
abbrev S1 : Shape := ⟨1, ![1]⟩
abbrev S4 : Shape := ⟨1, ![4]⟩
abbrev S9 : Shape := ⟨1, ![9]⟩
abbrev S_ : Shape := ⟨0, ![]⟩
abbrev S2x4194304 : Shape := ⟨2, ![2, 4194304]⟩
abbrev S1x4194304x3 : Shape := ⟨3, ![1, 4194304, 3]⟩
abbrev S4194304x3 : Shape := ⟨2, ![4194304, 3]⟩
abbrev S4194304 : Shape := ⟨1, ![4194304]⟩
abbrev S1x4194304 : Shape := ⟨2, ![1, 4194304]⟩
abbrev S4194304x1x1x1 : Shape := ⟨4, ![4194304, 1, 1, 1]⟩
abbrev S1x1x1x9 : Shape := ⟨4, ![1, 1, 1, 9]⟩
abbrev S4194304x1x1x9 : Shape := ⟨4, ![4194304, 1, 1, 9]⟩
abbrev S1x1x1x1 : Shape := ⟨4, ![1, 1, 1, 1]⟩
abbrev S1x1x4x1 : Shape := ⟨4, ![1, 1, 4, 1]⟩
abbrev S4194304x1x4x1 : Shape := ⟨4, ![4194304, 1, 4, 1]⟩
abbrev S4194304x1x4x9 : Shape := ⟨4, ![4194304, 1, 4, 9]⟩
abbrev S4194304x36 : Shape := ⟨2, ![4194304, 36]⟩

abbrev nBuf : Space → Nat
  | .hbm => 79
  | .vmem => 0
  | .smem => 0
  | _ => 0

abbrev bufTy : (tb : Table) → Fin (tcTables nBuf tb) → BufTy
  | .hbm, ⟨0, _⟩ => ⟨S2x4194304x3, .f32⟩
  | .hbm, ⟨1, _⟩ => ⟨S1, .f32⟩
  | .hbm, ⟨2, _⟩ => ⟨S4, .f32⟩
  | .hbm, ⟨3, _⟩ => ⟨S9, .f32⟩
  | .hbm, ⟨4, _⟩ => ⟨S9, .f32⟩
  | .hbm, ⟨5, _⟩ => ⟨S2x4194304x3, .f32⟩
  | .hbm, ⟨6, _⟩ => ⟨S_, .f32⟩
  | .hbm, ⟨7, _⟩ => ⟨S2x4194304, .f32⟩
  | .hbm, ⟨8, _⟩ => ⟨S2x4194304, .f32⟩
  | .hbm, ⟨9, _⟩ => ⟨S1x4194304x3, .f32⟩
  | .hbm, ⟨10, _⟩ => ⟨S4194304x3, .f32⟩
  | .hbm, ⟨11, _⟩ => ⟨S1x4194304x3, .f32⟩
  | .hbm, ⟨12, _⟩ => ⟨S4194304x3, .f32⟩
  | .hbm, ⟨13, _⟩ => ⟨S4194304x3, .f32⟩
  | .hbm, ⟨14, _⟩ => ⟨S_, .f32⟩
  | .hbm, ⟨15, _⟩ => ⟨S4194304, .f32⟩
  | .hbm, ⟨16, _⟩ => ⟨S1x4194304, .f32⟩
  | .hbm, ⟨17, _⟩ => ⟨S4194304, .f32⟩
  | .hbm, ⟨18, _⟩ => ⟨S1x4194304, .f32⟩
  | .hbm, ⟨19, _⟩ => ⟨S4194304, .f32⟩
  | .hbm, ⟨20, _⟩ => ⟨S4194304, .f32⟩
  | .hbm, ⟨21, _⟩ => ⟨S_, .f32⟩
  | .hbm, ⟨22, _⟩ => ⟨S4194304, .f32⟩
  | .hbm, ⟨23, _⟩ => ⟨S4194304, .f32⟩
  | .hbm, ⟨24, _⟩ => ⟨S4194304, .f32⟩
  | .hbm, ⟨25, _⟩ => ⟨S2x4194304, .f32⟩
  | .hbm, ⟨26, _⟩ => ⟨S_, .f32⟩
  | .hbm, ⟨27, _⟩ => ⟨S2x4194304, .f32⟩
  | .hbm, ⟨28, _⟩ => ⟨S2x4194304, .f32⟩
  | .hbm, ⟨29, _⟩ => ⟨S2x4194304, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x4194304, .f32⟩
  | .hbm, ⟨34, _⟩ => ⟨S2x4194304, .f32⟩
  | .hbm, ⟨35, _⟩ => ⟨S1x4194304, .f32⟩
  | .hbm, ⟨36, _⟩ => ⟨S4194304, .f32⟩
  | .hbm, ⟨37, _⟩ => ⟨S1x4194304, .f32⟩
  | .hbm, ⟨38, _⟩ => ⟨S4194304, .f32⟩
  | .hbm, ⟨39, _⟩ => ⟨S4194304, .f32⟩
  | .hbm, ⟨40, _⟩ => ⟨S4194304x1x1x1, .f32⟩
  | .hbm, ⟨41, _⟩ => ⟨S9, .f32⟩
  | .hbm, ⟨42, _⟩ => ⟨S1x1x1x9, .f32⟩
  | .hbm, ⟨43, _⟩ => ⟨S4194304x1x1x9, .f32⟩
  | .hbm, ⟨44, _⟩ => ⟨S4194304x1x1x9, .f32⟩
  | .hbm, ⟨45, _⟩ => ⟨S4194304x1x1x9, .f32⟩
  | .hbm, ⟨46, _⟩ => ⟨S4194304x1x1x9, .f32⟩
  | .hbm, ⟨47, _⟩ => ⟨S1x1x1x9, .f32⟩
  | .hbm, ⟨48, _⟩ => ⟨S4194304x1x1x9, .f32⟩
  | .hbm, ⟨49, _⟩ => ⟨S4194304x1x1x9, .f32⟩
  | .hbm, ⟨50, _⟩ => ⟨S1x4194304, .f32⟩
  | .hbm, ⟨51, _⟩ => ⟨S4194304, .f32⟩
  | .hbm, ⟨52, _⟩ => ⟨S1x4194304, .f32⟩
  | .hbm, ⟨53, _⟩ => ⟨S4194304, .f32⟩
  | .hbm, ⟨54, _⟩ => ⟨S4194304, .f32⟩
  | .hbm, ⟨55, _⟩ => ⟨S_, .f32⟩
  | .hbm, ⟨56, _⟩ => ⟨S4194304, .f32⟩
  | .hbm, ⟨57, _⟩ => ⟨S4194304, .f32⟩
  | .hbm, ⟨58, _⟩ => ⟨S1x1x1x1, .f32⟩
  | .hbm, ⟨59, _⟩ => ⟨S4194304x1x1x1, .f32⟩
  | .hbm, ⟨60, _⟩ => ⟨S1x1x4x1, .f32⟩
  | .hbm, ⟨61, _⟩ => ⟨S4194304x1x4x1, .f32⟩
  | .hbm, ⟨62, _⟩ => ⟨S4194304x1x4x1, .f32⟩
  | .hbm, ⟨63, _⟩ => ⟨S4194304x1x4x1, .f32⟩
  | .hbm, ⟨64, _⟩ => ⟨S4194304x1x4x1, .f32⟩
  | .hbm, ⟨65, _⟩ => ⟨S4194304x1x4x1, .f32⟩
  | .hbm, ⟨66, _⟩ => ⟨S4194304x1x4x1, .f32⟩
  | .hbm, ⟨67, _⟩ => ⟨S4194304x1x4x9, .f32⟩
  | .hbm, ⟨68, _⟩ => ⟨S4194304x1x4x9, .f32⟩
  | .hbm, ⟨69, _⟩ => ⟨S4194304x1x4x9, .f32⟩
  | .hbm, ⟨70, _⟩ => ⟨S4194304x1x4x9, .f32⟩
  | .hbm, ⟨71, _⟩ => ⟨S4194304x1x4x9, .f32⟩
  | .hbm, ⟨72, _⟩ => ⟨S_, .f32⟩
  | .hbm, ⟨73, _⟩ => ⟨S4194304x1x4x9, .f32⟩
  | .hbm, ⟨74, _⟩ => ⟨S4194304x1x4x9, .f32⟩
  | .hbm, ⟨75, _⟩ => ⟨S4194304x1x1x1, .f32⟩
  | .hbm, ⟨76, _⟩ => ⟨S4194304x1x4x9, .f32⟩
  | .hbm, ⟨77, _⟩ => ⟨S4194304x1x4x9, .f32⟩
  | .hbm, ⟨78, _⟩ => ⟨S4194304x36, .f32⟩
  | _, _ => ⟨S2x4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_5 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]

class Facts₀ : Prop where
  reducesTo_S2x4194304x3_S2x4194304_d2 : S2x4194304x3.ReducesTo [2] S2x4194304
  h_S_ : 0 < S_.numel
  slices_S2x4194304x3_S1x4194304x3_0_0_0 : S2x4194304x3.Slices ![0, 0, 0] S1x4194304x3
  shapeCasts_S1x4194304x3_S4194304x3 : S1x4194304x3.ShapeCasts S4194304x3
  slices_S2x4194304x3_S1x4194304x3_1_0_0 : S2x4194304x3.Slices ![1, 0, 0] S1x4194304x3
  reducesTo_S4194304x3_S4194304_d1 : S4194304x3.ReducesTo [1] S4194304
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S4194304 : S_.BroadcastsInDim S4194304 (![] : Fin 0 → Fin S4194304.rank)
  bcast_S_S2x4194304 : S_.BroadcastsInDim S2x4194304 (![] : Fin 0 → Fin S2x4194304.rank)
  bcast_S4194304_S4194304x1x1x1_0 : S4194304.BroadcastsInDim S4194304x1x1x1 (![0] : Fin 1 → Fin S4194304x1x1x1.rank)
  bcast_S9_S1x1x1x9_3 : S9.BroadcastsInDim S1x1x1x9 (![3] : Fin 1 → Fin S1x1x1x9.rank)
  bcast_S4194304x1x1x1_S4194304x1x1x9_0_1_2_3 : S4194304x1x1x1.BroadcastsInDim S4194304x1x1x9 (![0, 1, 2, 3] : Fin 4 → Fin S4194304x1x1x9.rank)
  bcast_S1x1x1x9_S4194304x1x1x9_0_1_2_3 : S1x1x1x9.BroadcastsInDim S4194304x1x1x9 (![0, 1, 2, 3] : Fin 4 → Fin S4194304x1x1x9.rank)
  bcast_S1_S1x1x1x1_1 : S1.BroadcastsInDim S1x1x1x1 (![1] : Fin 1 → Fin S1x1x1x1.rank)
  bcast_S4_S1x1x4x1_2 : S4.BroadcastsInDim S1x1x4x1 (![2] : Fin 1 → Fin S1x1x4x1.rank)
  bcast_S4194304x1x1x1_S4194304x1x4x1_0_1_2_3 : S4194304x1x1x1.BroadcastsInDim S4194304x1x4x1 (![0, 1, 2, 3] : Fin 4 → Fin S4194304x1x4x1.rank)
  bcast_S1x1x4x1_S4194304x1x4x1_0_1_2_3 : S1x1x4x1.BroadcastsInDim S4194304x1x4x1 (![0, 1, 2, 3] : Fin 4 → Fin S4194304x1x4x1.rank)
  bcast_S1x1x1x1_S4194304x1x4x1_0_1_2_3 : S1x1x1x1.BroadcastsInDim S4194304x1x4x1 (![0, 1, 2, 3] : Fin 4 → Fin S4194304x1x4x1.rank)
  bcast_S4194304x1x1x9_S4194304x1x4x9_0_1_2_3 : S4194304x1x1x9.BroadcastsInDim S4194304x1x4x9 (![0, 1, 2, 3] : Fin 4 → Fin S4194304x1x4x9.rank)
  bcast_S4194304x1x4x1_S4194304x1x4x9_0_1_2_3 : S4194304x1x4x1.BroadcastsInDim S4194304x1x4x9 (![0, 1, 2, 3] : Fin 4 → Fin S4194304x1x4x9.rank)
  bcast_S_S4194304x1x4x9 : S_.BroadcastsInDim S4194304x1x4x9 (![] : Fin 0 → Fin S4194304x1x4x9.rank)
  bcast_S4194304x1x1x1_S4194304x1x4x9_0_1_2_3 : S4194304x1x1x1.BroadcastsInDim S4194304x1x4x9 (![0, 1, 2, 3] : Fin 4 → Fin S4194304x1x4x9.rank)
  shapeCasts_S4194304x1x4x9_S4194304x36 : S4194304x1x4x9.ShapeCasts S4194304x36

variable [Facts₀]

class Facts : Prop extends Facts₀ where

variable [Facts]
-- ==== Proof.Angular.lean ====
/-
  The angular term of one atom triple as a function on the extended reals, and the three small laws that make
  the two programs' spellings of it one value.

  For two displacement vectors `x, y : Fin 3 → EReal` and one entry of each table — `eta`, `shfa` (indexed by
  the radial shift `a`), `gamma` and `shfz` (indexed by the angular shift `z`) — the term is

    4 · exp (-(gamma · (cosθ - cos shfz)² + eta · (d̄ - shfa)²)) · fc(|x|²) · fc(|y|²)

  with  |x|² = Σₖ xₖ²,  cosθ = (x·y) / max (|x|·|y|) ε,  d̄ = ½(|x| + |y|),  fc(s) = (c² - s)² / c⁴,  c² = 12.25.

  The kernel feeds the cutoff `fc` the sum of squares itself; the reference first takes the norm `√s` and squares
  it again. On the extended reals `√s · √s = s` for every `0 ≤ s` (also at `⊤`), and a sum of squares is never
  negative (`x · x ≥ 0` for every extended real, the infinities included), so no finiteness of the inputs is used.
  The reference multiplies `12.25 · 12.25` where the kernel carries the literal `150.0625`: both patterns are exact
  dyadics and the product is exact. The kernel negates by `0 - u`, the reference by `-u`.
-/
import Idealize.ShloMosaic.PureOps.Ideal
import Idealize.ShloMosaic.PureOps.Ideal.Laws
import Idealize.ShloMosaic.Lib.ValueIdx

noncomputable section

namespace Cert.Angular

open Idealize.ShloMosaic Idealize.ShloMosaic.ValueIdx

/-- The squared length `Σₖ xₖ · xₖ` of a 3-vector. -/
def sq (x : Fin 3 → EReal) : EReal := ∑ k : Fin 3, x k * x k

/-- The inner product `Σₖ xₖ · yₖ`. -/
def dotp (x y : Fin 3 → EReal) : EReal := ∑ k : Fin 3, x k * y k

/-- The squared cutoff radius `c² = 12.25`, as the pattern both programs spell. -/
abbrev c2 : EReal := Ideal.ofBits .f32 0x41440000#32
/-- `c⁴ = 150.0625`, the literal the kernel divides by. -/
abbrev c4 : EReal := Ideal.ofBits .f32 0x43161000#32
/-- The floor `1e-10` under the product of the norms. -/
abbrev eps : EReal := Ideal.ofBits .f32 0x2EDBE6FF#32
/-- `0.5`. -/
abbrev half : EReal := Ideal.ofBits .f32 0x3F000000#32
/-- `4.0`. -/
abbrev four : EReal := Ideal.ofBits .f32 0x40800000#32

/-- The biweight cutoff of a squared distance: `(c² - s)² / c⁴`. -/
def cutoff (s : EReal) : EReal := Ideal.div ((c2 - s) * (c2 - s)) c4

/-- The cosine of the angle between the two vectors, the denominator floored at `ε`. -/
def cosAngle (x y : Fin 3 → EReal) : EReal :=
  Ideal.div (dotp x y) (max (Ideal.sqrt (sq x) * Ideal.sqrt (sq y)) eps)

/-- The mean of the two lengths. -/
def davg (x y : Fin 3 → EReal) : EReal := half * (Ideal.sqrt (sq x) + Ideal.sqrt (sq y))

/-- The exponent before negation: the angular and the radial penalty. -/
def penalty (x y : Fin 3 → EReal) (eta shfa gamma shfz : EReal) : EReal :=
  gamma * ((cosAngle x y - Ideal.cos shfz) * (cosAngle x y - Ideal.cos shfz))
    + eta * ((davg x y - shfa) * (davg x y - shfa))

/-- The angular term of one triple at one pair of shifts. -/
def angular (x y : Fin 3 → EReal) (eta shfa gamma shfz : EReal) : EReal :=
  (four * Ideal.exp (-(penalty x y eta shfa gamma shfz))) * (cutoff (sq x) * cutoff (sq y))

/-! ## The whole result array

The result has one row per triple `p` and 36 columns; column `j` holds the term at radial shift `a = j / 9` and
angular shift `z = j % 9` (the row-major flattening of the `4 × 9` grid of shifts). -/

/-- The radial shift of column `j`. -/
def shiftA (j : Fin 36) : Fin 4 := ⟨j.val / 9, by have := j.isLt; omega⟩

/-- The angular shift of column `j`. -/
def shiftZ (j : Fin 36) : Fin 9 := ⟨j.val % 9, by omega⟩

/-- Displacement vector `e` (`0` or `1`) of triple `p`. -/
def row (v : (⟨3, ![2, 4194304, 3]⟩ : Shape).Idx → EReal) (e : Fin 2) (p : Fin 4194304) : Fin 3 → EReal :=
  fun k => v (ix3 e p k)

/-- The whole result as one function of the five argument arrays, index by index. -/
def G (v : (⟨3, ![2, 4194304, 3]⟩ : Shape).Idx → EReal) (eta : (⟨1, ![1]⟩ : Shape).Idx → EReal)
    (shfa : (⟨1, ![4]⟩ : Shape).Idx → EReal) (gamma shfz : (⟨1, ![9]⟩ : Shape).Idx → EReal) :
    (⟨2, ![4194304, 36]⟩ : Shape).Idx → EReal := fun i =>
  angular (row v 0 (i 0)) (row v 1 (i 0)) (eta (ix1 0)) (shfa (ix1 (shiftA (i 1))))
    (gamma (ix1 (shiftZ (i 1)))) (shfz (ix1 (shiftZ (i 1))))

/-! ## The laws -/

/-- A square is never negative on the extended reals: `⊥ · ⊥ = ⊤ · ⊤ = ⊤`, and a real square is a real square. -/
theorem mul_self_nonneg (a : EReal) : 0 ≤ a * a := by
  induction a using EReal.rec with
  | bot => rw [EReal.bot_mul_bot]; exact le_top
  | coe r => rw [← EReal.coe_mul]; exact EReal.coe_nonneg.mpr (_root_.mul_self_nonneg r)
  | top => rw [EReal.top_mul_top]; exact le_top

/-- So a squared length is never negative. -/
theorem sq_nonneg (x : Fin 3 → EReal) : 0 ≤ sq x :=
  Finset.sum_nonneg fun k _ => mul_self_nonneg (x k)

/-- The square root squared gives the number back, for every `0 ≤ s` of the extended reals. -/
theorem sqrt_mul_self {s : EReal} (h : 0 ≤ s) : Ideal.sqrt s * Ideal.sqrt s = s := by
  induction s using EReal.rec with
  | bot => exact absurd h (by simp)
  | coe r =>
    have hr : 0 ≤ r := EReal.coe_nonneg.mp h
    rw [Ideal.sqrt_coe, if_neg (not_lt.mpr hr), ← EReal.coe_mul, Real.mul_self_sqrt hr]
  | top => rw [Ideal.sqrt_top, EReal.top_mul_top]

/-- The norm of a 3-vector, squared, is its squared length. -/
theorem norm_mul_self (x : Fin 3 → EReal) : Ideal.sqrt (sq x) * Ideal.sqrt (sq x) = sq x :=
  sqrt_mul_self (sq_nonneg x)

/-- `12.25` denotes the real `49/4`. -/
theorem c2_eq : c2 = ((49 / 4 : ℝ) : EReal) := by
  simp [c2, Ideal.ofBits, Ideal.ieee, -EReal.coe_mul]; norm_num

/-- `150.0625` denotes the real `2401/16`. -/
theorem c4_eq : c4 = ((2401 / 16 : ℝ) : EReal) := by
  simp [c4, Ideal.ofBits, Ideal.ieee, -EReal.coe_mul]; norm_num

/-- The reference's product `12.25 · 12.25` is the kernel's literal `150.0625`. -/
theorem c2_mul_c2 : c2 * c2 = c4 := by
  rw [c2_eq, c4_eq, ← EReal.coe_mul]; norm_num

/-- The kernel's `0 - u` is the reference's `-u`. -/
theorem zero_pattern_sub (u : EReal) : Ideal.ofBits .f32 0x00000000#32 - u = -u := by
  rw [Ideal.ofBits_zero_f32, sub_eq_add_neg, zero_add]

/-- The host's sum from the zero pattern is the plain sum. -/
theorem zero_pattern_add (u : EReal) : Ideal.ofBits .f32 0x00000000#32 + u = u := by
  rw [Ideal.ofBits_zero_f32, zero_add]

end Cert.Angular

end
-- ==== Proof.RefRead.lean ====
/-
  The reference's result, read index by index: it is the whole-array function `Cert.Angular.G` of the arguments.

  The reference is a chain of 74 host operations over whole tensors; the generated reading gives each operation's
  element from its operands' elements at a closed-form index. Here the chain is walked once, stage by stage, at
  clean coordinates — a triple `p`, a vector `e`, a radial shift `a`, an angular shift `z`:

    the norm of vector `e` of triple `p`      √(0 + Σₖ v[e,p,k]²)
    the inner product of the two vectors        0 + Σₖ v[0,p,k]·v[1,p,k]
    the cosine, the mean length, the cutoffs    (the cutoff takes the norm squared again: `√s·√s = s`,
                                                 and divides by `12.25·12.25 = 150.0625`)
    the angular and the radial penalty          over `[p,1,1,z]` and `[p,1,a,1]`, broadcast to `[p,1,a,z]`
    the product, reshaped to `[p, 9a + z]`.
-/
import proofs.«129785_j29824252903586_1_alg».proof.Proof.Gen.ReferenceIdeal.Read
import proofs.«129785_j29824252903586_1_alg».proof.Proof.Angular

noncomputable section

namespace Cert.Angular.Ref

open Cert.ReferenceIdeal Cert.ReferenceIdeal.Gen Cert.ReferenceIdeal.Read Idealize.ShloMosaic
open Idealize.ShloMosaic.ValueIdx Cert.Angular

variable (x0 : (⟨S2x4194304x3, .f32⟩ : BufTy).Contents (Elt Ideal))
variable (x1 : (⟨S1, .f32⟩ : BufTy).Contents (Elt Ideal)) (x2 : (⟨S4, .f32⟩ : BufTy).Contents (Elt Ideal))
variable (x3 x4 : (⟨S9, .f32⟩ : BufTy).Contents (Elt Ideal))

/-! ## Where each stage reads its operand -/

theorem idx_sq (e : Fin 2) (p : Fin 4194304) (k : Fin 3) : idx_main_call0_v1 (ix2 e p) k = ix3 e p k := by
  funext a; apply Fin.ext
  match a with
  | ⟨0, _⟩ => rfl
  | ⟨1, _⟩ => rfl
  | ⟨2, _⟩ => rfl

theorem idx_dot0 (p : Fin 4194304) (k : Fin 3) : idx_main_v1 (idx_main_v2 (idx_main_v6 (ix1 p) k)) = ix3 0 p k := by
  funext a; apply Fin.ext
  have hp := p.isLt; have hk := k.isLt
  match a with
  | ⟨0, _⟩ => rfl
  | ⟨1, _⟩ => show (p.val * 3 + k.val) / 3 % 4194304 = p.val; omega
  | ⟨2, _⟩ => show (p.val * 3 + k.val) % 3 = k.val; omega

theorem idx_dot1 (p : Fin 4194304) (k : Fin 3) : idx_main_v3 (idx_main_v4 (idx_main_v6 (ix1 p) k)) = ix3 1 p k := by
  funext a; apply Fin.ext
  have hp := p.isLt; have hk := k.isLt
  match a with
  | ⟨0, _⟩ => rfl
  | ⟨1, _⟩ => show (p.val * 3 + k.val) / 3 % 4194304 = p.val; omega
  | ⟨2, _⟩ => show (p.val * 3 + k.val) % 3 = k.val; omega

theorem idx_n0 (p : Fin 4194304) : idx_main_v7 (idx_main_v8 (ix1 p)) = ix2 0 p := by
  funext a; apply Fin.ext
  have hp := p.isLt
  match a with
  | ⟨0, _⟩ => rfl
  | ⟨1, _⟩ => show p.val % 4194304 = p.val; omega

theorem idx_n1 (p : Fin 4194304) : idx_main_v9 (idx_main_v10 (ix1 p)) = ix2 1 p := by
  funext a; apply Fin.ext
  have hp := p.isLt
  match a with
  | ⟨0, _⟩ => rfl
  | ⟨1, _⟩ => show p.val % 4194304 = p.val; omega

theorem idx_c0 (p : Fin 4194304) : idx_main_v22 (idx_main_v23 (ix1 p)) = ix2 0 p := by
  funext a; apply Fin.ext
  have hp := p.isLt
  match a with
  | ⟨0, _⟩ => rfl
  | ⟨1, _⟩ => show p.val % 4194304 = p.val; omega

theorem idx_c1 (p : Fin 4194304) : idx_main_v24 (idx_main_v25 (ix1 p)) = ix2 1 p := by
  funext a; apply Fin.ext
  have hp := p.isLt
  match a with
  | ⟨0, _⟩ => rfl
  | ⟨1, _⟩ => show p.val % 4194304 = p.val; omega

theorem idx_m0 (p : Fin 4194304) : idx_main_v37 (idx_main_v38 (ix1 p)) = ix2 0 p := by
  funext a; apply Fin.ext
  have hp := p.isLt
  match a with
  | ⟨0, _⟩ => rfl
  | ⟨1, _⟩ => show p.val % 4194304 = p.val; omega

theorem idx_m1 (p : Fin 4194304) : idx_main_v39 (idx_main_v40 (ix1 p)) = ix2 1 p := by
  funext a; apply Fin.ext
  have hp := p.isLt
  match a with
  | ⟨0, _⟩ => rfl
  | ⟨1, _⟩ => show p.val % 4194304 = p.val; omega

/-! ## The stages -/

/-- The norm of vector `e` of triple `p`. -/
theorem norm_at (e : Fin 2) (p : Fin 4194304) :
    val_main_v0 (F := Ideal) x0 (ix2 e p) = Ideal.sqrt (sq (row x0 e p)) := by
  rw [val_main_v0_apply, val_main_call0_v1_apply]
  simp only [val_main_call0_cst_apply, val_main_call0_v0_apply, Ideal.hostUnary_sqrt_def, Ideal.ofBits_def,
    Ideal.mulf_def, zero_pattern_add, idx_sq]
  rfl

/-- The inner product of the two vectors of triple `p`. -/
theorem dot_at (p : Fin 4194304) :
    val_main_v6 (F := Ideal) x0 (ix1 p) = dotp (row x0 0 p) (row x0 1 p) := by
  rw [val_main_v6_apply]
  simp only [val_main_cst_apply, val_main_v5_apply, val_main_v2_apply, val_main_v1_apply, val_main_v4_apply,
    val_main_v3_apply, Ideal.ofBits_def, Ideal.mulf_def, zero_pattern_add, idx_dot0, idx_dot1]
  rfl

/-- The cosine of the angle at triple `p`. -/
theorem cos_at (p : Fin 4194304) :
    val_main_v14 (F := Ideal) x0 (ix1 p) = cosAngle (row x0 0 p) (row x0 1 p) := by
  rw [val_main_v14_apply, val_main_v13_apply, val_main_v11_apply, val_main_v12_apply, val_main_cst_0_apply,
    val_main_v8_apply, val_main_v7_apply, val_main_v10_apply, val_main_v9_apply, idx_n0, idx_n1,
    norm_at, norm_at, dot_at]
  rfl

/-- The cutoff of vector `e` of triple `p`: the reference squares the norm again and divides by `12.25 · 12.25`. -/
theorem cut_at (e : Fin 2) (p : Fin 4194304) :
    val_main_v21 (F := Ideal) x0 (ix2 e p) = cutoff (sq (row x0 e p)) := by
  rw [val_main_v21_apply, val_main_v18_apply, val_main_v17_apply, val_main_v16_apply, val_main_cst_1_apply,
    val_main_v15_apply, val_main_v20_apply, val_main_v19_apply, val_main_cst_2_apply, val_main_cst_3_apply, norm_at]
  simp only [Ideal.hostDivf_def, Ideal.mulf_def, Ideal.subf_def, Ideal.ofBits_def]
  rw [norm_mul_self, c2_mul_c2]
  rfl

/-- The product of the two cutoffs at triple `p`. -/
theorem fc_at (p : Fin 4194304) :
    val_main_v26 (F := Ideal) x0 (ix1 p) = cutoff (sq (row x0 0 p)) * cutoff (sq (row x0 1 p)) := by
  rw [val_main_v26_apply, val_main_v23_apply, val_main_v22_apply, val_main_v25_apply, val_main_v24_apply,
    idx_c0, idx_c1, cut_at, cut_at]
  rfl

/-- The mean length at triple `p`. -/
theorem davg_at (p : Fin 4194304) :
    val_main_v43 (F := Ideal) x0 (ix1 p) = davg (row x0 0 p) (row x0 1 p) := by
  rw [val_main_v43_apply, val_main_v42_apply, val_main_cst_4_apply, val_main_v41_apply, val_main_v38_apply,
    val_main_v37_apply, val_main_v40_apply, val_main_v39_apply, idx_m0, idx_m1, norm_at, norm_at]
  rfl

/-! ## The penalties, over the four-axis shapes -/

theorem idx_t1_gamma (p : Fin 4194304) (z : Fin 9) :
    idx_main_v34 (idx_main_v35 (ix4 p (0 : Fin 1) (0 : Fin 1) z)) = ix1 z := by
  funext a; apply Fin.ext
  match a with
  | ⟨0, _⟩ => rfl

theorem idx_t1_cos (p : Fin 4194304) (z : Fin 9) :
    idx_main_v27 (idx_main_v30 (ix4 p (0 : Fin 1) (0 : Fin 1) z)) = ix1 p := by
  funext a; apply Fin.ext
  match a with
  | ⟨0, _⟩ => rfl

theorem idx_t1_shfz (p : Fin 4194304) (z : Fin 9) :
    idx_main_v29 (idx_main_v31 (ix4 p (0 : Fin 1) (0 : Fin 1) z)) = ix1 z := by
  funext a; apply Fin.ext
  match a with
  | ⟨0, _⟩ => rfl

/-- The angular penalty of triple `p` at angular shift `z`. -/
theorem term1_at (p : Fin 4194304) (z : Fin 9) :
    val_main_v36 (F := Ideal) x0 x3 x4 (ix4 p (0 : Fin 1) (0 : Fin 1) z)
      = x3 (ix1 z) * ((cosAngle (row x0 0 p) (row x0 1 p) - Ideal.cos (x4 (ix1 z)))
          * (cosAngle (row x0 0 p) (row x0 1 p) - Ideal.cos (x4 (ix1 z)))) := by
  rw [val_main_v36_apply, val_main_v35_apply, val_main_v34_apply, val_main_v33_apply, val_main_v32_apply,
    val_main_v30_apply, val_main_v27_apply, val_main_v31_apply, val_main_v29_apply, val_main_v28_apply,
    idx_t1_gamma, idx_t1_cos, idx_t1_shfz, cos_at]
  rfl

theorem idx_t2_eta (p : Fin 4194304) (a : Fin 4) :
    idx_main_v44 (idx_main_v51 (ix4 p (0 : Fin 1) a (0 : Fin 1))) = ix1 (0 : Fin 1) := by
  funext b; apply Fin.ext
  match b with
  | ⟨0, _⟩ => rfl

theorem idx_t2_davg (p : Fin 4194304) (a : Fin 4) :
    idx_main_v45 (idx_main_v47 (ix4 p (0 : Fin 1) a (0 : Fin 1))) = ix1 p := by
  funext b; apply Fin.ext
  match b with
  | ⟨0, _⟩ => rfl

theorem idx_t2_shfa (p : Fin 4194304) (a : Fin 4) :
    idx_main_v46 (idx_main_v48 (ix4 p (0 : Fin 1) a (0 : Fin 1))) = ix1 a := by
  funext b; apply Fin.ext
  match b with
  | ⟨0, _⟩ => rfl

/-- The radial penalty of triple `p` at radial shift `a`. -/
theorem term2_at (p : Fin 4194304) (a : Fin 4) :
    val_main_v52 (F := Ideal) x0 x1 x2 (ix4 p (0 : Fin 1) a (0 : Fin 1))
      = x1 (ix1 0) * ((davg (row x0 0 p) (row x0 1 p) - x2 (ix1 a)) * (davg (row x0 0 p) (row x0 1 p) - x2 (ix1 a))) := by
  rw [val_main_v52_apply, val_main_v51_apply, val_main_v44_apply, val_main_v50_apply, val_main_v49_apply,
    val_main_v47_apply, val_main_v45_apply, val_main_v48_apply, val_main_v46_apply,
    idx_t2_eta, idx_t2_davg, idx_t2_shfa, davg_at]
  rfl

/-! ## The product, and its reshape -/

theorem idx_bc1 (p : Fin 4194304) (a : Fin 4) (z : Fin 9) :
    idx_main_v53 (ix4 p (0 : Fin 1) a z) = ix4 p (0 : Fin 1) (0 : Fin 1) z := by
  funext b; apply Fin.ext
  match b with
  | ⟨0, _⟩ => rfl
  | ⟨1, _⟩ => rfl
  | ⟨2, _⟩ => rfl
  | ⟨3, _⟩ => rfl

theorem idx_bc2 (p : Fin 4194304) (a : Fin 4) (z : Fin 9) :
    idx_main_v54 (ix4 p (0 : Fin 1) a z) = ix4 p (0 : Fin 1) a (0 : Fin 1) := by
  funext b; apply Fin.ext
  match b with
  | ⟨0, _⟩ => rfl
  | ⟨1, _⟩ => rfl
  | ⟨2, _⟩ => rfl
  | ⟨3, _⟩ => rfl

theorem idx_bcfc (p : Fin 4194304) (a : Fin 4) (z : Fin 9) :
    idx_main_v60 (idx_main_v61 (ix4 p (0 : Fin 1) a z)) = ix1 p := by
  funext b; apply Fin.ext
  match b with
  | ⟨0, _⟩ => rfl

/-- The term of triple `p` at shifts `a`, `z`, before the reshape. -/
theorem term_at (p : Fin 4194304) (a : Fin 4) (z : Fin 9) :
    val_main_v62 (F := Ideal) x0 x1 x2 x3 x4 (ix4 p (0 : Fin 1) a z)
      = angular (row x0 0 p) (row x0 1 p) (x1 (ix1 0)) (x2 (ix1 a)) (x3 (ix1 z)) (x4 (ix1 z)) := by
  rw [val_main_v62_apply, val_main_v59_apply, val_main_v58_apply, val_main_cst_5_apply, val_main_v57_apply,
    val_main_v56_apply, val_main_v55_apply, val_main_v53_apply, val_main_v54_apply, val_main_v61_apply,
    val_main_v60_apply, idx_bc1, idx_bc2, idx_bcfc, term1_at, term2_at, fc_at]
  rfl

/-- The reshape `[p,1,a,z] → [p, 9a + z]` read backwards: column `j` is shifts `j / 9`, `j % 9`. -/
theorem idx_flat (i : S4194304x36.Idx) :
    idx_main_v63 i = ix4 (i 0) (0 : Fin 1) (shiftA (i 1)) (shiftZ (i 1)) := by
  funext b; apply Fin.ext
  have h0 : (i 0).val < 4194304 := (i 0).isLt
  have h1 : (i 1).val < 36 := (i 1).isLt
  match b with
  | ⟨0, _⟩ => show ((i 0).val * 36 + (i 1).val) / 36 = (i 0).val; omega
  | ⟨1, _⟩ => rfl
  | ⟨2, _⟩ => show ((i 0).val * 36 + (i 1).val) / 9 % 4 = (i 1).val / 9; omega
  | ⟨3, _⟩ => show ((i 0).val * 36 + (i 1).val) % 9 = (i 1).val % 9; omega

/-- THE REFERENCE'S RESULT is `G` of its arguments. -/
theorem result_eq : val_main_v63 (F := Ideal) x0 x1 x2 x3 x4 = G x0 x1 x2 x3 x4 := by
  funext i
  refine (val_main_v63_apply x0 x1 x2 x3 x4 i).trans ?_
  refine (congrArg (val_main_v62 (F := Ideal) x0 x1 x2 x3 x4) (idx_flat i)).trans ?_
  exact term_at x0 x1 x2 x3 x4 (i 0) (shiftA (i 1)) (shiftZ (i 1))

end Cert.Angular.Ref

end
-- ==== Proof.LibKeepdims.lean ====
/-
  Keepdims column layouts read at an index: what a `sum(axis=1, keepdims=True)` leaves a kernel to re-lay.

  A vector `[a]` cast to a column `[a, 1]`; a column `[a, 1]` broadcast along its unit axis to `[a, b]`; a single
  element `[1, 1]` broadcast to `[a, b]`. Each reads, at `(p, c)`, the operand at the coordinates that survive:
  the row `p` for a column, nothing for a single element. Stated over literal rank-1 and rank-2 shapes with indices
  built from coordinates, generic in the element type and in the extents, beside the library's leading-unit-axis casts
  and its one-row broadcast `[1, b] → [a, b]`.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` (with `1 < a`, so that the row axis is not itself a unit axis) reads,
    at `(p, c)`, the column's entry of row `p`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- A single element `[1, 1]` broadcast to `[a, b]` reads the element everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibKeepdims

end
-- ==== Proof.KernelBlock.lean ====
/-
  What one grid point leaves in its output block: at row `r` and column `j` of the `[16384, 36]` block, the angular
  term of the block's triple `r` at shifts `j / 9`, `j % 9`.

  The body loads the two displacement blocks `[1, 16384, 3]`, sums each row's three products (a lane reduction), keeps
  the sums as columns `[16384, 1]`, and builds the `[16384, 36]` result by broadcasting columns and table rows and by
  concatenating four `[16384, 9]` pieces. The generated value leg has already resolved the concatenations and the last
  broadcast: its `E5` reads each piece at `(r, j % 9)` and picks piece `j / 9`. What is left is to read each piece —
  a tree of pointwise operations over re-laid columns and rows — at that index, and the row sums as `Σₖ`.
-/
import proofs.«129785_j29824252903586_1_alg».proof.Proof.Gen.KernelIdeal.Value
import proofs.«129785_j29824252903586_1_alg».proof.Proof.Angular
import proofs.«129785_j29824252903586_1_alg».proof.Proof.LibKeepdims
import Idealize.ShloMosaic.Lib.ValueLayout
import Idealize.ShloMosaic.PureOps.Ideal.Laws

noncomputable section

namespace Cert.Angular.Kern

open Cert.KernelIdeal Cert.KernelIdeal.Gen Cert.KernelIdeal.Value Idealize.ShloMosaic
open Idealize.ShloMosaic.ValueIdx Cert.Angular Cert.LibKeepdims

/-- Row `r` of a loaded displacement block. -/
def brow (P : FVec Ideal S1x16384x3 .f32) (r : Fin 16384) : Fin 3 → EReal := fun k => P (ix3 (0 : Fin 1) r k)

/-! ## Pointwise operations read at an index (each is the definition) -/

theorem sqrt_at {s : Shape} (v : FVec Ideal s .f32) (i : s.Idx) : sqrt v i = Ideal.sqrt (v i) := rfl
theorem cos_at {s : Shape} (v : FVec Ideal s .f32) (i : s.Idx) : cos v i = Ideal.cos (v i) := rfl

/-! ## The row sums -/

/-- The lane reduction of the product of two loaded blocks, at row `r`: the sum of the row's three products. -/
theorem rowsum_at (P Q : FVec Ideal S1x16384x3 .f32) (hφ : FKind.Formats .f32)
    (hacc : (0x00000000#32 : BitVec 32) = 0x00000000#32) (r : Fin 16384) :
    multiReduction .add [1] S16384 (mulf (shapeCast S16384x3 P shapeCasts_S1x16384x3_S16384x3)
        (shapeCast S16384x3 Q shapeCasts_S1x16384x3_S16384x3)) 0x00000000#32 reduces_S16384x3_S16384 hφ hacc (ix1 r)
      = ∑ k : Fin 3, P (ix3 (0 : Fin 1) r k) * Q (ix3 (0 : Fin 1) r k) := by
  refine (Ideal.multiReduction_add_single _ 0x00000000#32 reduces_S16384x3_S16384 hφ hacc (ix1 r)).trans ?_
  refine Finset.sum_congr rfl fun (k : Fin 3) _ => ?_
  have e : reduces_S16384x3_S16384.lift (ix1 r) k = ix2 r k :=
    funext fun a => Fin.ext (by match a with | ⟨0, _⟩ => rfl | ⟨1, _⟩ => rfl)
  show shapeCast S16384x3 P shapeCasts_S1x16384x3_S16384x3 (reduces_S16384x3_S16384.lift (ix1 r) k)
      * shapeCast S16384x3 Q shapeCasts_S1x16384x3_S16384x3 (reduces_S16384x3_S16384.lift (ix1 r) k) = _
  rw [e, shapeCast_1ab_ab_apply, shapeCast_1ab_ab_apply]

/-- A block's squared row lengths, kept as a column. -/
theorem sqcol_at (P : FVec Ideal S1x16384x3 .f32) (hφ : FKind.Formats .f32)
    (hacc : (0x00000000#32 : BitVec 32) = 0x00000000#32) (r : Fin 16384) :
    shapeCast S16384x1 (multiReduction .add [1] S16384 (mulf (shapeCast S16384x3 P shapeCasts_S1x16384x3_S16384x3)
        (shapeCast S16384x3 P shapeCasts_S1x16384x3_S16384x3)) 0x00000000#32 reduces_S16384x3_S16384 hφ hacc)
      shapeCasts_S16384_S16384x1 (ix2 r (0 : Fin 1)) = sq (brow P r) := by
  rw [shapeCast_a_a1_apply, rowsum_at]
  rfl

/-- The rows' inner products, kept as a column. -/
theorem dotcol_at (P Q : FVec Ideal S1x16384x3 .f32) (hφ : FKind.Formats .f32)
    (hacc : (0x00000000#32 : BitVec 32) = 0x00000000#32) (r : Fin 16384) :
    shapeCast S16384x1 (multiReduction .add [1] S16384 (mulf (shapeCast S16384x3 P shapeCasts_S1x16384x3_S16384x3)
        (shapeCast S16384x3 Q shapeCasts_S1x16384x3_S16384x3)) 0x00000000#32 reduces_S16384x3_S16384 hφ hacc)
      shapeCasts_S16384_S16384x1 (ix2 r (0 : Fin 1)) = dotp (brow P r) (brow Q r) := by
  rw [shapeCast_a_a1_apply, rowsum_at]
  rfl

/-! ## The shapes of the two concatenated pieces, over variables -/

/-- A table row `g` times the square of (a column `c` minus a table row `cz`), all broadcast to `[16384, 9]`:
    at `(r, z)` it is `g z · (c r - cz z)²`. -/
theorem angPiece_at (g cz : FVec Ideal S1x9 .f32) (c : FVec Ideal S16384x1 .f32)
    (h1 h1' : S1x9.Broadcasts S16384x9) (h2 : S16384x1.Broadcasts S16384x9) (r : Fin 16384) (z : Fin 9) :
    (mulf (broadcastTo S16384x9 g h1) (mulf (subf (broadcastTo S16384x9 c h2) (broadcastTo S16384x9 cz h1'))
        (subf (broadcastTo S16384x9 c h2) (broadcastTo S16384x9 cz h1')))) (ix2 r z)
      = g (ix2 (0 : Fin 1) z) * ((c (ix2 r (0 : Fin 1)) - cz (ix2 (0 : Fin 1) z))
          * (c (ix2 r (0 : Fin 1)) - cz (ix2 (0 : Fin 1) z))) := by
  simp only [mulf_apply, subf_apply, broadcastTo_1b_ab_apply, broadcastTo_a1_ab_apply (by decide : (16384 : ℕ) ≠ 1)]

/-- A single element `e` times the square of (a column `d` minus a table row `sa`), all broadcast to `[16384, 4]`:
    at `(r, a)` it is `e · (d r - sa a)²`. -/
theorem radPiece_at (e : FVec Ideal S1x1 .f32) (d : FVec Ideal S16384x1 .f32) (sa : FVec Ideal S1x4 .f32)
    (h1 : S1x1.Broadcasts S16384x4) (h2 : S16384x1.Broadcasts S16384x4) (h3 : S1x4.Broadcasts S16384x4)
    (r : Fin 16384) (a : Fin 4) :
    (mulf (broadcastTo S16384x4 e h1) (mulf (subf (broadcastTo S16384x4 d h2) (broadcastTo S16384x4 sa h3))
        (subf (broadcastTo S16384x4 d h2) (broadcastTo S16384x4 sa h3)))) (ix2 r a)
      = e (ix2 (0 : Fin 1) (0 : Fin 1)) * ((d (ix2 r (0 : Fin 1)) - sa (ix2 (0 : Fin 1) a))
          * (d (ix2 r (0 : Fin 1)) - sa (ix2 (0 : Fin 1) a))) := by
  simp only [mulf_apply, subf_apply, broadcastTo_1b_ab_apply, broadcastTo_11_ab_apply,
    broadcastTo_a1_ab_apply (by decide : (16384 : ℕ) ≠ 1)]

/-- Column `o` of a `[16384, 4]` value, cut out, kept as a column and broadcast to `[16384, 9]`: at `(r, z)` it is
    the value at `(r, o)`. -/
theorem colPiece_at (o : ℕ) (W : FVec Ideal S16384x4 .f32) (h : S16384x4.Slices ![0, o] S16384x1) (n : Fin 4)
    (hn : n.val = o + (0 : Fin 1).val) (r : Fin 16384) (z : Fin 9) :
    broadcastTo S16384x9 (shapeCast S16384x1 (extractStridedSlice S16384x1 ![0, o] W h) shapeCasts_S16384x1_S16384x1)
        broadcasts_S16384x1_S16384x9 (ix2 r z) = W (ix2 r n) := by
  rw [broadcastTo_a1_ab_apply (by decide : (16384 : ℕ) ≠ 1), shapeCast_self, slice2_axis1_apply o W h r (0 : Fin 1) n hn]

/-! ## The two concatenated pieces -/

variable (P0 : FVec Ideal S9 .f32) (P1 P2 : FVec Ideal S1x16384x3 .f32) (P3 : FVec Ideal S9 .f32)
  (P4 : FVec Ideal S1 .f32) (P5 : FVec Ideal S4 .f32)

/-! Every operand of the first concatenation is the angular penalty `[16384, 9]`: at `(r, z)` it is
    `gamma z · (cosθ r - cos (shfz z))²`. -/

theorem cat0_at_0 (r : Fin 16384) (z : Fin 9) :
    Cat5_0 (F := Ideal) P0 P1 P2 P3 P4 P5 (⟨0, by decide⟩ : Fin 4) (ix2 r z)
      = P0 (ix1 z) * ((cosAngle (brow P1 r) (brow P2 r) - Ideal.cos (P3 (ix1 z)))
          * (cosAngle (brow P1 r) (brow P2 r) - Ideal.cos (P3 (ix1 z)))) := by
  dsimp only [Cat5_0]
  refine (angPiece_at _ _ _ _ _ _ r z).trans ?_
  rw [shapeCast_a_1a_apply, shapeCast_a_1a_apply]
  simp only [divf_apply, maximumf_apply, mulf_apply, sqrt_at, cos_at, broadcast_apply]
  rw [dotcol_at, sqcol_at, sqcol_at]
  rfl

theorem cat0_at_1 (r : Fin 16384) (z : Fin 9) :
    Cat5_0 (F := Ideal) P0 P1 P2 P3 P4 P5 (⟨1, by decide⟩ : Fin 4) (ix2 r z)
      = P0 (ix1 z) * ((cosAngle (brow P1 r) (brow P2 r) - Ideal.cos (P3 (ix1 z)))
          * (cosAngle (brow P1 r) (brow P2 r) - Ideal.cos (P3 (ix1 z)))) := by
  dsimp only [Cat5_0]
  refine (angPiece_at _ _ _ _ _ _ r z).trans ?_
  rw [shapeCast_a_1a_apply, shapeCast_a_1a_apply]
  simp only [divf_apply, maximumf_apply, mulf_apply, sqrt_at, cos_at, broadcast_apply]
  rw [dotcol_at, sqcol_at, sqcol_at]
  rfl

theorem cat0_at_2 (r : Fin 16384) (z : Fin 9) :
    Cat5_0 (F := Ideal) P0 P1 P2 P3 P4 P5 (⟨2, by decide⟩ : Fin 4) (ix2 r z)
      = P0 (ix1 z) * ((cosAngle (brow P1 r) (brow P2 r) - Ideal.cos (P3 (ix1 z)))
          * (cosAngle (brow P1 r) (brow P2 r) - Ideal.cos (P3 (ix1 z)))) := by
  dsimp only [Cat5_0]
  refine (angPiece_at _ _ _ _ _ _ r z).trans ?_
  rw [shapeCast_a_1a_apply, shapeCast_a_1a_apply]
  simp only [divf_apply, maximumf_apply, mulf_apply, sqrt_at, cos_at, broadcast_apply]
  rw [dotcol_at, sqcol_at, sqcol_at]
  rfl

theorem cat0_at_3 (r : Fin 16384) (z : Fin 9) :
    Cat5_0 (F := Ideal) P0 P1 P2 P3 P4 P5 (⟨3, by decide⟩ : Fin 4) (ix2 r z)
      = P0 (ix1 z) * ((cosAngle (brow P1 r) (brow P2 r) - Ideal.cos (P3 (ix1 z)))
          * (cosAngle (brow P1 r) (brow P2 r) - Ideal.cos (P3 (ix1 z)))) := by
  dsimp only [Cat5_0]
  refine (angPiece_at _ _ _ _ _ _ r z).trans ?_
  rw [shapeCast_a_1a_apply, shapeCast_a_1a_apply]
  simp only [divf_apply, maximumf_apply, mulf_apply, sqrt_at, cos_at, broadcast_apply]
  rw [dotcol_at, sqcol_at, sqcol_at]
  rfl

theorem cat0_at (n : Fin 4) (r : Fin 16384) (z : Fin 9) :
    Cat5_0 (F := Ideal) P0 P1 P2 P3 P4 P5 n (ix2 r z)
      = P0 (ix1 z) * ((cosAngle (brow P1 r) (brow P2 r) - Ideal.cos (P3 (ix1 z)))
          * (cosAngle (brow P1 r) (brow P2 r) - Ideal.cos (P3 (ix1 z)))) :=
  match n with
  | ⟨0, _⟩ => cat0_at_0 P0 P1 P2 P3 P4 P5 r z
  | ⟨1, _⟩ => cat0_at_1 P0 P1 P2 P3 P4 P5 r z
  | ⟨2, _⟩ => cat0_at_2 P0 P1 P2 P3 P4 P5 r z
  | ⟨3, _⟩ => cat0_at_3 P0 P1 P2 P3 P4 P5 r z

/-! Operand `n` of the second concatenation is column `n` of the radial penalty `[16384, 4]`, repeated along the
    nine angular shifts: at `(r, z)` it is `eta · (d̄ r - shfa n)²`. -/

theorem cat1_at_0 (r : Fin 16384) (z : Fin 9) :
    Cat5_1 (F := Ideal) P0 P1 P2 P3 P4 P5 (⟨0, by decide⟩ : Fin 4) (ix2 r z)
      = P4 (ix1 0) * ((davg (brow P1 r) (brow P2 r) - P5 (ix1 (⟨0, by decide⟩ : Fin 4)))
          * (davg (brow P1 r) (brow P2 r) - P5 (ix1 (⟨0, by decide⟩ : Fin 4)))) := by
  dsimp only [Cat5_1]
  refine (colPiece_at 0 _ _ (⟨0, by decide⟩ : Fin 4) rfl r z).trans ?_
  refine (radPiece_at _ _ _ _ _ _ r (⟨0, by decide⟩ : Fin 4)).trans ?_
  rw [shapeCast_a_1a_apply, shapeCast_a_1a_apply]
  simp only [mulf_apply, addf_apply, sqrt_at, broadcast_apply]
  rw [sqcol_at, sqcol_at]
  rfl

theorem cat1_at_1 (r : Fin 16384) (z : Fin 9) :
    Cat5_1 (F := Ideal) P0 P1 P2 P3 P4 P5 (⟨1, by decide⟩ : Fin 4) (ix2 r z)
      = P4 (ix1 0) * ((davg (brow P1 r) (brow P2 r) - P5 (ix1 (⟨1, by decide⟩ : Fin 4)))
          * (davg (brow P1 r) (brow P2 r) - P5 (ix1 (⟨1, by decide⟩ : Fin 4)))) := by
  dsimp only [Cat5_1]
  refine (colPiece_at 1 _ _ (⟨1, by decide⟩ : Fin 4) rfl r z).trans ?_
  refine (radPiece_at _ _ _ _ _ _ r (⟨1, by decide⟩ : Fin 4)).trans ?_
  rw [shapeCast_a_1a_apply, shapeCast_a_1a_apply]
  simp only [mulf_apply, addf_apply, sqrt_at, broadcast_apply]
  rw [sqcol_at, sqcol_at]
  rfl

theorem cat1_at_2 (r : Fin 16384) (z : Fin 9) :
    Cat5_1 (F := Ideal) P0 P1 P2 P3 P4 P5 (⟨2, by decide⟩ : Fin 4) (ix2 r z)
      = P4 (ix1 0) * ((davg (brow P1 r) (brow P2 r) - P5 (ix1 (⟨2, by decide⟩ : Fin 4)))
          * (davg (brow P1 r) (brow P2 r) - P5 (ix1 (⟨2, by decide⟩ : Fin 4)))) := by
  dsimp only [Cat5_1]
  refine (colPiece_at 2 _ _ (⟨2, by decide⟩ : Fin 4) rfl r z).trans ?_
  refine (radPiece_at _ _ _ _ _ _ r (⟨2, by decide⟩ : Fin 4)).trans ?_
  rw [shapeCast_a_1a_apply, shapeCast_a_1a_apply]
  simp only [mulf_apply, addf_apply, sqrt_at, broadcast_apply]
  rw [sqcol_at, sqcol_at]
  rfl

theorem cat1_at_3 (r : Fin 16384) (z : Fin 9) :
    Cat5_1 (F := Ideal) P0 P1 P2 P3 P4 P5 (⟨3, by decide⟩ : Fin 4) (ix2 r z)
      = P4 (ix1 0) * ((davg (brow P1 r) (brow P2 r) - P5 (ix1 (⟨3, by decide⟩ : Fin 4)))
          * (davg (brow P1 r) (brow P2 r) - P5 (ix1 (⟨3, by decide⟩ : Fin 4)))) := by
  dsimp only [Cat5_1]
  refine (colPiece_at 3 _ _ (⟨3, by decide⟩ : Fin 4) rfl r z).trans ?_
  refine (radPiece_at _ _ _ _ _ _ r (⟨3, by decide⟩ : Fin 4)).trans ?_
  rw [shapeCast_a_1a_apply, shapeCast_a_1a_apply]
  simp only [mulf_apply, addf_apply, sqrt_at, broadcast_apply]
  rw [sqcol_at, sqcol_at]
  rfl

theorem cat1_at (n : Fin 4) (r : Fin 16384) (z : Fin 9) :
    Cat5_1 (F := Ideal) P0 P1 P2 P3 P4 P5 n (ix2 r z)
      = P4 (ix1 0) * ((davg (brow P1 r) (brow P2 r) - P5 (ix1 n)) * (davg (brow P1 r) (brow P2 r) - P5 (ix1 n))) :=
  match n with
  | ⟨0, _⟩ => cat1_at_0 P0 P1 P2 P3 P4 P5 r z
  | ⟨1, _⟩ => cat1_at_1 P0 P1 P2 P3 P4 P5 r z
  | ⟨2, _⟩ => cat1_at_2 P0 P1 P2 P3 P4 P5 r z
  | ⟨3, _⟩ => cat1_at_3 P0 P1 P2 P3 P4 P5 r z

/-! ## The block's entry at `(r, j)` -/

/-- The block the pieces leave, at row `r` and column `j`: the angular term of the block's triple `r` at radial shift
    `j / 9` and angular shift `j % 9`. -/
theorem E5_at (r : Fin 16384) (j : Fin 36) :
    E5 (F := Ideal) P0 P1 P2 P3 P4 P5 (ix2 r j)
      = angular (brow P1 r) (brow P2 r) (P4 (ix1 0)) (P5 (ix1 (shiftA j))) (P0 (ix1 (shiftZ j))) (P3 (ix1 (shiftZ j))) := by
  have i0 : ix5_0 (ix2 r j) = ix2 r (shiftZ j) :=
    funext fun a => Fin.ext (by match a with | ⟨0, _⟩ => rfl | ⟨1, _⟩ => rfl)
  have i1 : ix5_1 (ix2 r j) = ix2 r (shiftZ j) :=
    funext fun a => Fin.ext (by match a with | ⟨0, _⟩ => rfl | ⟨1, _⟩ => rfl)
  have i2 : ix5_2 (ix2 r j) = ix1 r := funext fun a => Fin.ext (by match a with | ⟨0, _⟩ => rfl)
  have i3 : ix5_3 (ix2 r j) = ix1 r := funext fun a => Fin.ext (by match a with | ⟨0, _⟩ => rfl)
  have i4 : ix5_4 (ix2 r j) = ix1 r := funext fun a => Fin.ext (by match a with | ⟨0, _⟩ => rfl)
  have i5 : ix5_5 (ix2 r j) = ix1 r := funext fun a => Fin.ext (by match a with | ⟨0, _⟩ => rfl)
  have c0 : csel5_0 (ix2 r j) = shiftA j := rfl
  have c1 : csel5_1 (ix2 r j) = shiftA j := rfl
  dsimp only [E5]
  rw [i0, i1, i2, i3, i4, i5, c0, c1, cat0_at, cat1_at, rowsum_at, rowsum_at]
  unfold angular
  rw [← zero_pattern_sub]
  rfl

/-! ## The body's result from the staged blocks -/

/-- The first displacement vector of the staged `[2, 16384, 3]` block, loaded as `[1, 16384, 3]`. -/
theorem ld_row0 (x0 : Vec Ideal S2x16384x3 .f32) (r : Fin 16384) (k : Fin 3) :
    View.ld x0 r0_0 (ix3 (0 : Fin 1) r k) = x0 (ix3 (0 : Fin 2) r k) := by
  show x0 (r0_0.emb (ix3 (0 : Fin 1) r k)) = _
  congr 1; funext a; apply Fin.ext
  match a with
  | ⟨0, _⟩ => rfl
  | ⟨1, _⟩ => show 0 + 1 * r.val = r.val; omega
  | ⟨2, _⟩ => show 0 + 1 * k.val = k.val; omega

/-- The second displacement vector, loaded from offset `1` on the leading axis. -/
theorem ld_row1 (x0 : Vec Ideal S2x16384x3 .f32) (r : Fin 16384) (k : Fin 3) :
    View.ld x0 r0_1 (ix3 (0 : Fin 1) r k) = x0 (ix3 (1 : Fin 2) r k) := by
  show x0 (r0_1.emb (ix3 (0 : Fin 1) r k)) = _
  congr 1; funext a; apply Fin.ext
  match a with
  | ⟨0, _⟩ => rfl
  | ⟨1, _⟩ => show 0 + 1 * r.val = r.val; omega
  | ⟨2, _⟩ => show 0 + 1 * k.val = k.val; omega

theorem hz1 : (![0] : Fin 1 → Nat) = fun _ => 0 := funext fun a => by fin_cases a; rfl

/-- WHAT THE BODY LEAVES in the output block, from the contents of the five staged blocks: at `(r, j)` the angular
    term of the two staged vectors of row `r` and the tables' entries at the column's shifts. -/
theorem out_at (x0 : Vec Ideal S2x16384x3 .f32) (x1 : Vec Ideal S1 .f32) (x2 : Vec Ideal S4 .f32)
    (x3 x4 : Vec Ideal S9 .f32) (r : Fin 16384) (j : Fin 36) :
    out0_5 x0 x1 x2 x3 x4 (ix2 r j)
      = angular (fun k => x0 (ix3 (0 : Fin 2) r k)) (fun k => x0 (ix3 (1 : Fin 2) r k)) (x1 (ix1 0))
          (x2 (ix1 (shiftA j))) (x3 (ix1 (shiftZ j))) (x4 (ix1 (shiftZ j))) := by
  unfold out0_5
  rw [canon5_eq, E5_at]
  have l1 : View.ld x1 r0_3 = x1 := View.ld_unit_zero (S := S1) hz1 _ x1
  have l2 : View.ld x2 r0_4 = x2 := View.ld_unit_zero (S := S4) hz1 _ x2
  have l3 : View.ld x3 r0_2 = x3 := View.ld_unit_zero (S := S9) hz1 _ x3
  have l4 : View.ld x4 r0_2 = x4 := View.ld_unit_zero (S := S9) hz1 _ x4
  rw [l1, l2, l3, l4]
  have b0 : brow (View.ld x0 r0_0) r = fun k => x0 (ix3 (0 : Fin 2) r k) := funext fun k => ld_row0 x0 r k
  have b1 : brow (View.ld x0 r0_1) r = fun k => x0 (ix3 (1 : Fin 2) r k) := funext fun k => ld_row1 x0 r k
  rw [b0, b1]

end Cert.Angular.Kern

end
-- ==== Proof.KernelValue.lean ====
/-
  From blocks to the array: the kernel's result array after the run is `Cert.Angular.G` of its arguments.

  The grid has 256 points; point `t` stages rows `16384·t … 16384·t + 16383` of both displacement vectors (one
  `[2, 16384, 3]` block), the four tables whole, and writes back rows `16384·t …` of the `[4194304, 36]` result, all 36
  columns. So what point `t` writes back is block `t` of one whole-array function, the blocks tile the result, and the
  array ends holding that function.
-/
import proofs.«129785_j29824252903586_1_alg».proof.Proof.KernelBlock

noncomputable section

namespace Cert.Angular.Kern

open Cert.KernelIdeal Cert.KernelIdeal.Gen Cert.KernelIdeal.Value Idealize.ShloMosaic Idealize.ShloMosaic.TcCoe
open Idealize.SL.Sem Idealize.ShloMosaic.ValueIdx Cert.Angular
open Idealize.ShloMosaic.Pipeline (Dat)

variable (m : (ℓ : Loc nD τ sig) → Buf (Elt Ideal) ℓ) (ρ : Dev nD → PrngReg)

/-- The printed index maps, decided over the 256 grid points: the displacement window sits at block `(0, t, 0)`, the
    tables at block `0`, the result window at block `(t, 0)`. -/
theorem idx_facts : ∀ t : Fin cfg0.N,
    win0_0.index t (0 : Fin 3) = 0 ∧ win0_0.index t (1 : Fin 3) = win0_5.index t (0 : Fin 2)
    ∧ win0_0.index t (2 : Fin 3) = 0
    ∧ win0_1.index t (0 : Fin 1) = 0 ∧ win0_2.index t (0 : Fin 1) = 0
    ∧ win0_3.index t (0 : Fin 1) = 0 ∧ win0_4.index t (0 : Fin 1) = 0
    ∧ win0_5.index t (1 : Fin 2) = 0 ∧ win0_5.index t (0 : Fin 2) = t.val :=
  (by decide +kernel : ∀ t : Fin grid0.N, _)

/-- The result array as one function of the argument arrays as the region finds them. -/
abbrev Gk (c : Dev nD) : S4194304x36.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- The body's result at any index of the block (the coordinates read off the index). -/
theorem out_at' (x0 : Vec Ideal S2x16384x3 .f32) (x1 : Vec Ideal S1 .f32) (x2 : Vec Ideal S4 .f32)
    (x3 x4 : Vec Ideal S9 .f32) (y : S16384x36.Idx) :
    out0_5 x0 x1 x2 x3 x4 y
      = angular (fun k => x0 (ix3 (0 : Fin 2) (y 0) k)) (fun k => x0 (ix3 (1 : Fin 2) (y 0) k)) (x1 (ix1 0))
          (x2 (ix1 (shiftA (y 1)))) (x3 (ix1 (shiftZ (y 1)))) (x4 (ix1 (shiftZ (y 1)))) := by
  exact (congrArg (out0_5 x0 x1 x2 x3 x4) (eq_ix2 y)).trans (out_at x0 x1 x2 x3 x4 (y 0) (y 1))

/-- The term is a function of its six arguments. -/
theorem angular_congr {a a' b b' : Fin 3 → EReal} {c1 c1' c2 c2' c3 c3' c4 c4' : EReal}
    (ha : a = a') (hb : b = b') (h1 : c1 = c1') (h2 : c2 = c2') (h3 : c3 = c3') (h4 : c4 = c4') :
    angular a b c1 c2 c3 c4 = angular a' b' c1' c2' c3' c4' := by
  subst ha hb h1 h2 h3 h4; rfl

/-- WHAT POINT `t` WRITES BACK is block `t` of `G` of the argument arrays. -/
theorem flushed_eq (c : Dev nD) (t : Fin cfg0.N) :
    (dats m 0 c).flushed 5 t = ((cfg0.win 5).blk t).view.read (Elt Ideal) (Gk m c) := by
  rw [flushed5]
  obtain ⟨e0, e1, e2, e3, e4, e5, e6, e7, e8⟩ := idx_facts t
  funext y
  show out0_5 (iblk m c 0 t) (iblk m c 1 t) (iblk m c 2 t) (iblk m c 3 t) (iblk m c 4 t) y
      = Gk m c (((cfg0.win 5).blk t).view.emb y)
  refine (out_at' (iblk m c 0 t) (iblk m c 1 t) (iblk m c 2 t) (iblk m c 3 t) (iblk m c 4 t) y).trans ?_
  have hy0 : (y 0).val < 16384 := (y 0).isLt
  have hy1 : (y 1).val < 36 := (y 1).isLt
  refine angular_congr ?_ ?_ ?_ ?_ ?_ ?_
  · funext k
    show V m c main_arg0 (((cfg0.win 0).blk t).view.emb (ix3 (0 : Fin 2) (y 0) k))
        = V m c main_arg0 (ix3 (0 : Fin 2) ((((cfg0.win 5).blk t).view.emb y) 0) k)
    congr 1; funext a; apply Fin.ext
    match a with
    | ⟨0, _⟩ => show win0_0.index t (0 : Fin 3) * 2 + 1 * 0 = 0; omega
    | ⟨1, _⟩ =>
      show win0_0.index t (1 : Fin 3) * 16384 + 1 * (y 0).val = win0_5.index t (0 : Fin 2) * 16384 + 1 * (y 0).val
      omega
    | ⟨2, _⟩ => show win0_0.index t (2 : Fin 3) * 3 + 1 * k.val = k.val; omega
  · funext k
    show V m c main_arg0 (((cfg0.win 0).blk t).view.emb (ix3 (1 : Fin 2) (y 0) k))
        = V m c main_arg0 (ix3 (1 : Fin 2) ((((cfg0.win 5).blk t).view.emb y) 0) k)
    congr 1; funext a; apply Fin.ext
    match a with
    | ⟨0, _⟩ => show win0_0.index t (0 : Fin 3) * 2 + 1 * 1 = 1; omega
    | ⟨1, _⟩ =>
      show win0_0.index t (1 : Fin 3) * 16384 + 1 * (y 0).val = win0_5.index t (0 : Fin 2) * 16384 + 1 * (y 0).val
      omega
    | ⟨2, _⟩ => show win0_0.index t (2 : Fin 3) * 3 + 1 * k.val = k.val; omega
  · show V m c main_arg1 (((cfg0.win 1).blk t).view.emb (ix1 (0 : Fin 1))) = V m c main_arg1 (ix1 (0 : Fin 1))
    congr 1; funext a; apply Fin.ext
    match a with
    | ⟨0, _⟩ => show win0_1.index t (0 : Fin 1) * 1 + 1 * 0 = 0; omega
  · show V m c main_arg2 (((cfg0.win 2).blk t).view.emb (ix1 (shiftA (y 1))))
        = V m c main_arg2 (ix1 (shiftA ((((cfg0.win 5).blk t).view.emb y) 1)))
    congr 1; funext a; apply Fin.ext
    match a with
    | ⟨0, _⟩ =>
      show win0_2.index t (0 : Fin 1) * 4 + 1 * ((y 1).val / 9) = (win0_5.index t (1 : Fin 2) * 36 + 1 * (y 1).val) / 9
      omega
  · show V m c main_arg3 (((cfg0.win 3).blk t).view.emb (ix1 (shiftZ (y 1))))
        = V m c main_arg3 (ix1 (shiftZ ((((cfg0.win 5).blk t).view.emb y) 1)))
    congr 1; funext a; apply Fin.ext
    match a with
    | ⟨0, _⟩ =>
      show win0_3.index t (0 : Fin 1) * 9 + 1 * ((y 1).val % 9) = (win0_5.index t (1 : Fin 2) * 36 + 1 * (y 1).val) % 9
      omega
  · show V m c main_arg4 (((cfg0.win 4).blk t).view.emb (ix1 (shiftZ (y 1))))
        = V m c main_arg4 (ix1 (shiftZ ((((cfg0.win 5).blk t).view.emb y) 1)))
    congr 1; funext a; apply Fin.ext
    match a with
    | ⟨0, _⟩ =>
      show win0_4.index t (0 : Fin 1) * 9 + 1 * ((y 1).val % 9) = (win0_5.index t (1 : Fin 2) * 36 + 1 * (y 1).val) % 9
      omega

/-! ## The blocks tile the result -/

/-- An index of the result is in point `t`'s block iff each coordinate is in the block's range on its axis. -/
theorem mem_blk (t : Fin cfg0.N) (i : S4194304x36.Idx) :
    i ∈ ((cfg0.win 5).blk t).view.set ↔ ∀ a : Fin 2, win0_5.index t a * S16384x36.size a ≤ (i a).val
      ∧ (i a).val < win0_5.index t a * S16384x36.size a + S16384x36.size a := by
  show i ∈ ((View.whole main_v0).slice (win0_5.rect t)).set ↔ _
  rw [View.set_slice_whole, Rect.mem_set_unit]
  exact Iff.rfl

/-- Row `p` of the result lies in the block of point `p / 16384`. -/
theorem cover (i : S4194304x36.Idx) :
    ∃ t : Fin cfg0.N, (cfg0.win 5).flush t = true ∧ i ∈ ((cfg0.win 5).blk t).view.set := by
  have h0 : (i 0).val < 4194304 := (i 0).isLt
  have h1 : (i 1).val < 36 := (i 1).isLt
  have hlt : (i 0).val / 16384 < cfg0.N := by show _ < grid0.N; rw [N_0]; omega
  obtain ⟨_, _, _, _, _, _, _, e7, e8⟩ := idx_facts ⟨(i 0).val / 16384, hlt⟩
  refine ⟨⟨(i 0).val / 16384, hlt⟩, flush0_5 _, ?_⟩
  rw [mem_blk]
  intro a
  match a with
  | ⟨0, _⟩ =>
    show win0_5.index ⟨(i 0).val / 16384, hlt⟩ (0 : Fin 2) * 16384 ≤ (i 0).val
      ∧ (i 0).val < win0_5.index ⟨(i 0).val / 16384, hlt⟩ (0 : Fin 2) * 16384 + 16384
    rw [e8]; show (i 0).val / 16384 * 16384 ≤ (i 0).val ∧ (i 0).val < (i 0).val / 16384 * 16384 + 16384
    omega
  | ⟨1, _⟩ =>
    show win0_5.index ⟨(i 0).val / 16384, hlt⟩ (1 : Fin 2) * 36 ≤ (i 1).val
      ∧ (i 1).val < win0_5.index ⟨(i 0).val / 16384, hlt⟩ (1 : Fin 2) * 36 + 36
    omega

/-- THE RESULT ARRAY after the run is `G` of the argument arrays. -/
theorem final (c : Dev nD) : (dats m 0 c).arrAt 5 cfg0.N = Gk m c :=
  (dats m 0 c).arrAt_eq_of_cover 5 (Gk m c) (fun t _ => flushed_eq m c t) cover

/-! ## The run, read -/

/-- The kernel's run: it terminates without a fault, the result array at `G` of the arguments, the arguments unchanged. -/
theorem run : θ_run defs (onTc (τ := τ) (main (F := Ideal))) ⟨m, fun _ => 0, ρ⟩ fun r => ∀ c : Dev nD,
      r.2.mem ((c : Thread nD τ).loc main_v0) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Angular.Kern

end
-- ==== Proof.lean ====
/-
  The angular symmetry-function term of 4,194,304 atom triples, tiled over 256 grid points, against its array-level
  reference: the two programs compute one function on the extended reals.

  For triple `p` with displacement vectors `x = v[0,p,·]`, `y = v[1,p,·]`, radial shift `a` and angular shift `z`,
  both programs leave at `[p, 9a + z]`

    4 · exp (-(Gamma z · (cosθ - cos (ShfZ z))² + EtaA · (½(|x| + |y|) - ShfA a)²)) · fc(|x|²) · fc(|y|²),

  `cosθ = (x·y) / max (|x|·|y|) 1e-10`, `fc(s) = (12.25 - s)² / 150.0625` (Proof/Angular.lean states it once, as
  `Cert.Angular.G`). The reference reaches it through 74 whole-tensor operations (Proof/RefRead.lean walks them at an
  index); the kernel through a body of row sums, column and row broadcasts and two concatenations per 16384-row block
  (Proof/KernelBlock.lean reads the block, Proof/KernelValue.lean tiles the blocks into the array). They differ in three
  spellings, equal on the extended reals whatever the inputs: the reference squares the norm again where the kernel
  keeps the sum of squares (`√s · √s = s` for `0 ≤ s`, and a sum of squares is never negative), it multiplies
  `12.25 · 12.25` where the kernel carries `150.0625`, and it negates where the kernel subtracts from zero. No
  finiteness of the inputs is used. The idealization rewrote nothing, so `preserves` has nothing to state.
-/
import proofs.«129785_j29824252903586_1_alg».proof.Defs
import proofs.«129785_j29824252903586_1_alg».proof.Proof.Gen.Kernel
import proofs.«129785_j29824252903586_1_alg».proof.Proof.Gen.Kernel.Skeleton
import proofs.«129785_j29824252903586_1_alg».proof.Proof.Gen.Kernel.Launch
import proofs.«129785_j29824252903586_1_alg».proof.Proof.Gen.Kernel.Points
import proofs.«129785_j29824252903586_1_alg».proof.Proof.Gen.Kernel.Frame
import proofs.«129785_j29824252903586_1_alg».proof.Proof.Gen.KernelIdeal
import proofs.«129785_j29824252903586_1_alg».proof.Proof.Gen.KernelIdeal.Skeleton
import proofs.«129785_j29824252903586_1_alg».proof.Proof.Gen.KernelIdeal.Launch
import proofs.«129785_j29824252903586_1_alg».proof.Proof.Gen.KernelIdeal.Points
import proofs.«129785_j29824252903586_1_alg».proof.Proof.Gen.KernelIdeal.Frame
import proofs.«129785_j29824252903586_1_alg».proof.Proof.Gen.ReferenceIdeal
import proofs.«129785_j29824252903586_1_alg».proof.Proof.Gen.Pre_finite_inputs
import proofs.«129785_j29824252903586_1_alg».proof.Proof.Gen.KernelIdeal.Value
import proofs.«129785_j29824252903586_1_alg».proof.Proof.Gen.ReferenceIdeal.Run
import proofs.«129785_j29824252903586_1_alg».proof.Proof.Gen.ReferenceIdeal.Read
import proofs.«129785_j29824252903586_1_alg».proof.Proof.RefRead
import proofs.«129785_j29824252903586_1_alg».proof.Proof.KernelValue
import Idealize.ShloMosaic.Adequacy
import Idealize.ShloMosaic.Init

noncomputable section

namespace Cert.Proof

open Idealize.ShloMosaic Idealize.SL.Sem

/-- The word-level kernel runs and keeps its arguments: its generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the five arguments, the kernel's result array and the reference's both end at
    `Cert.Angular.G` of those arguments. -/
theorem algebraic : Cert.algebraic_KernelIdeal_ReferenceIdeal := by
  intro m ρ m' ρ' _ hagree
  refine ⟨fun c => Cert.Angular.Kern.Gk m c, Cert.Angular.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.Angular.Ref.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
